-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1 : Shape := ⟨3, ![4, 2048, 1]⟩
abbrev S4x8192x1 : Shape := ⟨3, ![4, 8192, 1]⟩
abbrev S4x8192x128 : Shape := ⟨3, ![4, 8192, 128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel

variable [Facts]

def fn {F : FTy → Type} [FloatOps F] (main_arg0 : IVec S4x2048x1 32) (main_arg1 : IVec S4x8192x1 32) (main_arg2 : FVec F S4x8192x128 .f32) : IVec S_ 1 :=
  let main_v0 : FVec F S4x8192x128 .f32 := Host.absf main_arg2
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  main_v3
-- ==== Kernel.lean ====
abbrev S4x2048x1 : Shape := ⟨3, ![4, 2048, 1]⟩
abbrev S4x8192x1 : Shape := ⟨3, ![4, 8192, 1]⟩
abbrev S4x8192x128 : Shape := ⟨3, ![4, 8192, 128]⟩
abbrev S4x1x8192 : Shape := ⟨3, ![4, 1, 8192]⟩
abbrev S4x2048x128 : Shape := ⟨3, ![4, 2048, 128]⟩
abbrev S1x2048x1 : Shape := ⟨3, ![1, 2048, 1]⟩
abbrev S1x1x1024 : Shape := ⟨3, ![1, 1, 1024]⟩
abbrev S1x1024x128 : Shape := ⟨3, ![1, 1024, 128]⟩
abbrev S1x2048x128 : Shape := ⟨3, ![1, 2048, 128]⟩
abbrev S2048x128 : Shape := ⟨2, ![2048, 128]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x1, .i32⟩
  | .hbm, ⟨1, _⟩ => ⟨S4x8192x1, .i32⟩
  | .hbm, ⟨2, _⟩ => ⟨S4x8192x128, .f32⟩
  | .hbm, ⟨3, _⟩ => ⟨S4x1x8192, .i32⟩
  | .hbm, ⟨4, _⟩ => ⟨S4x2048x128, .f32⟩
  | .local _ .vmem, ⟨0, _⟩ => ⟨S1x2048x1, .i32⟩
  | .local _ .vmem, ⟨1, _⟩ => ⟨S1x2048x1, .i32⟩
  | .local _ .vmem, ⟨2, _⟩ => ⟨S1x1x1024, .i32⟩
  | .local _ .vmem, ⟨3, _⟩ => ⟨S1x1x1024, .i32⟩
  | .local _ .vmem, ⟨4, _⟩ => ⟨S1x1024x128, .f32⟩
  | .local _ .vmem, ⟨5, _⟩ => ⟨S1x1024x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x128, .f32⟩
  | .local _ .vmem, ⟨9, _⟩ => ⟨S2048x1, .f32⟩
  | _, _ => ⟨S4x2048x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_18 : BitVec 32 := 0#32
  let v31 : BitVec 1 := Scalar.cmpi .ne v30 c0_i32_18
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x1_S4x1x8192_0_2_1 : S4x8192x1.Transposes [0, 2, 1] S4x1x8192
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S2048x1_S2048x1024 : S2048x1.Broadcasts S2048x1024
  broadcasts_S1x1024_S2048x1024 : S1x1024.Broadcasts S2048x1024
  natLt_1_32 : 1 < 32
  reduces_S2048x1024_S2048 : S2048x1024.Reduces [1] S2048
  shapeCasts_S2048_S2048x1 : S2048.ShapeCasts S2048x1
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S2048x1_S2048x128 : S2048x1.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S4x2048x1.size a
  hwx0_0 : ∀ i : grid0.Coords, EltTy.bits .i32 = 32 ∨ (Rect.block (s := S4x2048x1) S1x2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S4x1x8192.size a
  hwx0_1 : ∀ i : grid0.Coords, EltTy.bits .i32 = 32 ∨ (Rect.block (s := S4x1x8192) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x8192x128.size a
  hwx0_2 : ∀ i : grid0.Coords, EltTy.bits .f32 = 32 ∨ (Rect.block (s := S4x8192x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S4x2048x128.size a
  hwx0_3 : ∀ i : grid0.Coords, EltTy.bits .f32 = 32 ∨ (Rect.block (s := S4x2048x128) S1x2048x128.size (cc0_transform_3 i) (hinb0_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x1 : Shape := ⟨3, ![4, 2048, 1]⟩
abbrev S4x8192x1 : Shape := ⟨3, ![4, 8192, 1]⟩
abbrev S4x8192x128 : Shape := ⟨3, ![4, 8192, 128]⟩
abbrev S4x2048 : Shape := ⟨2, ![4, 2048]⟩
abbrev S4x8192 : Shape := ⟨2, ![4, 8192]⟩
abbrev S4x1x8192 : Shape := ⟨3, ![4, 1, 8192]⟩
abbrev S4x2048x8192 : Shape := ⟨3, ![4, 2048, 8192]⟩
abbrev S_ : Shape := ⟨0, ![]⟩
abbrev S4x2048x128 : Shape := ⟨3, ![4, 2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x1, .i32⟩
  | .hbm, ⟨1, _⟩ => ⟨S4x8192x1, .i32⟩
  | .hbm, ⟨2, _⟩ => ⟨S4x8192x128, .f32⟩
  | .hbm, ⟨3, _⟩ => ⟨S4x2048, .i32⟩
  | .hbm, ⟨4, _⟩ => ⟨S4x2048x1, .i32⟩
  | .hbm, ⟨5, _⟩ => ⟨S4x8192, .i32⟩
  | .hbm, ⟨6, _⟩ => ⟨S4x1x8192, .i32⟩
  | .hbm, ⟨7, _⟩ => ⟨S4x2048x8192, .i32⟩
  | .hbm, ⟨8, _⟩ => ⟨S4x2048x8192, .i32⟩
  | .hbm, ⟨9, _⟩ => ⟨S4x2048x8192, .i1⟩
  | .hbm, ⟨10, _⟩ => ⟨S4x2048x8192, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x128, .f32⟩
  | .hbm, ⟨18, _⟩ => ⟨S4x2048x128, .f32⟩
  | .hbm, ⟨19, _⟩ => ⟨S4x2048x128, .f32⟩
  | _, _ => ⟨S4x2048x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S4x2048x1_S4x2048 : S4x2048x1.ShapeCasts S4x2048
  bcast_S4x2048_S4x2048x1_0_1 : S4x2048.BroadcastsInDim S4x2048x1 (![0, 1] : Fin 2 → Fin S4x2048x1.rank)
  shapeCasts_S4x8192x1_S4x8192 : S4x8192x1.ShapeCasts S4x8192
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  reducesTo_S4x2048x8192_S4x2048_d2 : S4x2048x8192.ReducesTo [2] S4x2048
  h_S_ : 0 < S_.numel
  bcast_S_S4x2048x1 : S_.BroadcastsInDim S4x2048x1 (![] : Fin 0 → Fin S4x2048x1.rank)
  bcast_S4x2048x1_S4x2048x128_0_1_2 : S4x2048x1.BroadcastsInDim S4x2048x128 (![0, 1, 2] : Fin 3 → Fin S4x2048x128.rank)
  dot_S4x2048x8192_S4x8192x128_S4x2048x128_2_1_1_2_0_0_wf : DotDims.WF S4x2048x8192 S4x8192x128 S4x2048x128 [2] [1] [1] [2] [0] [0]

variable [Facts₀]

def dot_S4x2048x8192_S4x8192x128_S4x2048x128_2_1_1_2_0_0 : DotDims S4x2048x8192 S4x8192x128 S4x2048x128 where
  lhsContracting := [2]
  rhsContracting := [1]
  lhsNonContracting := [1]
  rhsNonContracting := [2]
  lhsBatch := [0]
  rhsBatch := [0]
  wf := dot_S4x2048x8192_S4x8192x128_S4x2048x128_2_1_1_2_0_0_wf

class Facts : Prop extends Facts₀ where

variable [Facts]
-- ==== Proof.CaseValue.lean ====
/-
  What each of the body's three cases leaves behind, as values.

  The body keeps two accumulators between grid points: the numerator (2048 × 128) and the count (2048 × 1). At the
  FIRST tile of a batch it stores zero into both, reads them back, and stores the updated values; at a MIDDLE tile it
  updates both from what the tile before left; at the LAST tile it updates both and then stores, into the output
  block, the quotient of the two values it has just stored. The frame's run found the stores of each case as a list
  of pieces; here each list is read back as ONE value: the update of the tile's three input blocks applied to zero
  (first tile) or to what was there (middle and last), and the quotient of the two updates (last). For any float
  instance: nothing here opens the arithmetic.
-/
import proofs.«107493_j2482491097343_1_alg».proof.Proof.Gen.KernelIdeal.Frame
import Idealize.ShloMosaic.Lib.Pipeline.Value
import Idealize.ShloMosaic.Lib.Tactic

noncomputable section

namespace Cert.KernelIdeal.CaseValue

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First tile: both accumulators start from the zero the case itself stores -/

theorem numer_first (c : Dev nD) (i : grid0.Coords) (arg2 : Memref sig .tc .vmem S1x2048x1 .i32) (harg2 : arg2.IsWhole) (arg3 : Memref sig .tc .vmem S1x1x1024 .i32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : cond0_0 i) (hc1 : ¬cond0_1 i)
    (x0 : Vec F S1x2048x1 .i32) (x1 : Vec F S1x1x1024 .i32) (x2 : Vec F S1x1024x128 .f32) :
    sout0_A_0 c i arg2 harg2 arg3 harg3 arg4 harg4 arg5 harg5 arg6 harg6 arg7 harg7 hc0 hc1 x0 x1 x2 = k0_pay6 x0 x1 x2 k0_pay2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x128) hz2, View.readCov_unit_zero (S := S2048x128) _ hz2]
  simp only [View.readAt_eq_ld, harg2.read_unread, harg3.read_unread, harg4.read_unread, harg6.read_unread, harg7.read_unread,
    View.ld_unit_zero (S := S1x2048x1) hz3, View.ld_unit_zero (S := S1x1x1024) hz3, View.ld_unit_zero (S := S1x1024x128) hz3,
    View.ld_unit_zero (S := S2048x128) hz2, View.ld_unit_zero (S := S2048x1) hz2]

theorem count_first (c : Dev nD) (i : grid0.Coords) (arg2 : Memref sig .tc .vmem S1x2048x1 .i32) (harg2 : arg2.IsWhole) (arg3 : Memref sig .tc .vmem S1x1x1024 .i32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : cond0_0 i) (hc1 : ¬cond0_1 i)
    (x0 : Vec F S1x2048x1 .i32) (x1 : Vec F S1x1x1024 .i32) (x2 : Vec F S1x1024x128 .f32) :
    sout0_A_1 c i arg2 harg2 arg3 harg3 arg4 harg4 arg5 harg5 arg6 harg6 arg7 harg7 hc0 hc1 x0 x1 x2 = k0_pay5 x0 x1 k0_pay3 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg4.read_unread, harg6.read_unread, harg7.read_unread,
    View.ld_unit_zero (S := S1x2048x1) hz3, View.ld_unit_zero (S := S1x1x1024) hz3, View.ld_unit_zero (S := S1x1024x128) hz3,
    View.ld_unit_zero (S := S2048x128) hz2, View.ld_unit_zero (S := S2048x1) hz2]

/-! ## Middle tile: both accumulators updated from what the tile before left -/

theorem numer_middle (c : Dev nD) (i : grid0.Coords) (arg2 : Memref sig .tc .vmem S1x2048x1 .i32) (harg2 : arg2.IsWhole) (arg3 : Memref sig .tc .vmem S1x1x1024 .i32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : ¬cond0_1 i)
    (x0 : Vec F S1x2048x1 .i32) (x1 : Vec F S1x1x1024 .i32) (x2 : Vec F S1x1024x128 .f32) (xs0 : Vec F S2048x128 .f32) (xs1 : Vec F S2048x1 .f32) :
    sout0_B_0 c i arg2 harg2 arg3 harg3 arg4 harg4 arg5 harg5 arg6 harg6 arg7 harg7 hc0 hc1 x0 x1 x2 xs0 xs1 = k0_pay6 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S2048x128) hz2]
  simp only [View.readAt_eq_ld, harg2.read_unread, harg3.read_unread, harg4.read_unread, harg6.read_unread, harg7.read_unread,
    View.ld_unit_zero (S := S1x2048x1) hz3, View.ld_unit_zero (S := S1x1x1024) hz3, View.ld_unit_zero (S := S1x1024x128) hz3,
    View.ld_unit_zero (S := S2048x128) hz2, View.ld_unit_zero (S := S2048x1) hz2]

theorem count_middle (c : Dev nD) (i : grid0.Coords) (arg2 : Memref sig .tc .vmem S1x2048x1 .i32) (harg2 : arg2.IsWhole) (arg3 : Memref sig .tc .vmem S1x1x1024 .i32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : ¬cond0_1 i)
    (x0 : Vec F S1x2048x1 .i32) (x1 : Vec F S1x1x1024 .i32) (x2 : Vec F S1x1024x128 .f32) (xs0 : Vec F S2048x128 .f32) (xs1 : Vec F S2048x1 .f32) :
    sout0_B_1 c i arg2 harg2 arg3 harg3 arg4 harg4 arg5 harg5 arg6 harg6 arg7 harg7 hc0 hc1 x0 x1 x2 xs0 xs1 = k0_pay5 x0 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S2048x1) hz2]
  simp only [View.readAt_eq_ld, harg2.read_unread, harg3.read_unread, harg4.read_unread, harg6.read_unread, harg7.read_unread,
    View.ld_unit_zero (S := S1x2048x1) hz3, View.ld_unit_zero (S := S1x1x1024) hz3, View.ld_unit_zero (S := S1x1024x128) hz3,
    View.ld_unit_zero (S := S2048x128) hz2, View.ld_unit_zero (S := S2048x1) hz2]

/-! ## Last tile: the same updates, and the output block at their quotient -/

theorem numer_last (c : Dev nD) (i : grid0.Coords) (arg2 : Memref sig .tc .vmem S1x2048x1 .i32) (harg2 : arg2.IsWhole) (arg3 : Memref sig .tc .vmem S1x1x1024 .i32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : cond0_1 i)
    (x0 : Vec F S1x2048x1 .i32) (x1 : Vec F S1x1x1024 .i32) (x2 : Vec F S1x1024x128 .f32) (xs0 : Vec F S2048x128 .f32) (xs1 : Vec F S2048x1 .f32) :
    sout0_C_0 c i arg2 harg2 arg3 harg3 arg4 harg4 arg5 harg5 arg6 harg6 arg7 harg7 hc0 hc1 x0 x1 x2 xs0 xs1 = k0_pay6 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x128) hz2]
  simp only [View.readAt_eq_ld, harg2.read_unread, harg3.read_unread, harg4.read_unread, harg6.read_unread, harg7.read_unread,
    View.ld_unit_zero (S := S1x2048x1) hz3, View.ld_unit_zero (S := S1x1x1024) hz3, View.ld_unit_zero (S := S1x1024x128) hz3,
    View.ld_unit_zero (S := S2048x128) hz2, View.ld_unit_zero (S := S2048x1) hz2]

theorem count_last (c : Dev nD) (i : grid0.Coords) (arg2 : Memref sig .tc .vmem S1x2048x1 .i32) (harg2 : arg2.IsWhole) (arg3 : Memref sig .tc .vmem S1x1x1024 .i32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : cond0_1 i)
    (x0 : Vec F S1x2048x1 .i32) (x1 : Vec F S1x1x1024 .i32) (x2 : Vec F S1x1024x128 .f32) (xs0 : Vec F S2048x128 .f32) (xs1 : Vec F S2048x1 .f32) :
    sout0_C_1 c i arg2 harg2 arg3 harg3 arg4 harg4 arg5 harg5 arg6 harg6 arg7 harg7 hc0 hc1 x0 x1 x2 xs0 xs1 = k0_pay5 x0 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz2]
  simp only [View.readAt_eq_ld, harg2.read_unread, harg3.read_unread, harg4.read_unread, harg6.read_unread, harg7.read_unread,
    View.ld_unit_zero (S := S1x2048x1) hz3, View.ld_unit_zero (S := S1x1x1024) hz3, View.ld_unit_zero (S := S1x1024x128) hz3,
    View.ld_unit_zero (S := S2048x128) hz2, View.ld_unit_zero (S := S2048x1) hz2]

theorem block_last (c : Dev nD) (i : grid0.Coords) (arg2 : Memref sig .tc .vmem S1x2048x1 .i32) (harg2 : arg2.IsWhole) (arg3 : Memref sig .tc .vmem S1x1x1024 .i32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x1 .f32) (harg7 : arg7.IsWhole) (hc0 : ¬cond0_0 i) (hc1 : cond0_1 i)
    (x0 : Vec F S1x2048x1 .i32) (x1 : Vec F S1x1x1024 .i32) (x2 : Vec F S1x1024x128 .f32) (xs0 : Vec F S2048x128 .f32) (xs1 : Vec F S2048x1 .f32) :
    out0_C_3 c i arg2 harg2 arg3 harg3 arg4 harg4 arg5 harg5 arg6 harg6 arg7 harg7 hc0 hc1 x0 x1 x2 xs0 xs1 = k0_pay1 (k0_pay6 x0 x1 x2 xs0) (k0_pay5 x0 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x2048x128) hz3]
  simp only [View.readCov_unit_zero (S := S2048x128) _ hz2, View.readCov_unit_zero (S := S2048x1) _ hz2,
    View.readAt_eq_ld, harg2.read_unread, harg3.read_unread, harg4.read_unread, harg6.read_unread, harg7.read_unread,
    View.ld_unit_zero (S := S1x2048x1) hz3, View.ld_unit_zero (S := S1x1x1024) hz3, View.ld_unit_zero (S := S1x1024x128) hz3,
    View.ld_unit_zero (S := S2048x128) hz2, View.ld_unit_zero (S := S2048x1) hz2]

end Cert.KernelIdeal.CaseValue

end
-- ==== Proof.BlockValue.lean ====
/-
  The three input blocks of a grid point, read at an entry of the argument arrays.

  The grid has 4 × 8 points in row-major order: point `t` works on batch `t / 8` and on tile `t % 8` of that
  batch's 8192 source rows. Its block of target ids is the batch's whole column of 2048 ids; its tile of source ids
  is entries 1024·(t % 8) … 1024·(t % 8) + 1023 of the batch's row of the TRANSPOSED id array (the host program
  transposes the source ids, 4 × 8192 × 1, to 4 × 1 × 8192 before the kernel runs), so the tile's `k`-th id is the
  source id of row 1024·(t % 8) + k; its block of source rows is those same 1024 rows. For any float instance.
-/
import proofs.«107493_j2482491097343_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.BlockValue

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The point's three input blocks, at their literal types. -/
abbrev tgtBlk (c : Dev nD) (t : Fin cfg0.N) : Vec F S1x2048x1 .i32 := iblk m c 0 t
abbrev srcBlk (c : Dev nD) (t : Fin cfg0.N) : Vec F S1x1x1024 .i32 := iblk m c 1 t
abbrev rowBlk (c : Dev nD) (t : Fin cfg0.N) : Vec F S1x1024x128 .f32 := iblk m c 2 t

/-- The three argument arrays, at their literal types. -/
abbrev tgtArr (c : Dev nD) : Vec F S4x2048x1 .i32 := m ((c : Thread nD τ).loc main_arg0)
abbrev srcArr (c : Dev nD) : Vec F S4x8192x1 .i32 := m ((c : Thread nD τ).loc main_arg1)
abbrev rowArr (c : Dev nD) : Vec F S4x8192x128 .f32 := m ((c : Thread nD τ).loc main_arg2)

/-- The printed index maps over the grid: batch `t / 8` on the leading axis; the tile `t % 8` on the source axis of the
    two tiled windows; zero elsewhere. -/
theorem index_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = t.val % 8)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

/-- The block of target ids at row `r` is the batch's target id of row `r`. -/
theorem tgtBlk_apply (c : Dev nD) (t : Fin cfg0.N) (b : Fin 4) (hb : b.val = t.val / 8) (r : Fin 2048) :
    tgtBlk m c t (ix3 0 r 0) = tgtArr m c (ix3 b r 0) := by
  obtain ⟨⟨e0, e1, e2⟩, -, -, -⟩ := index_facts t
  show V m c main_arg0 (((cfg0.win 0).blk t).view.emb (ix3 0 r 0)) = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 2048 + 1 * r.val = r.val; omega
  | ⟨2, _⟩ => show win0_0.index t (2 : Fin 3) * 1 + 1 * 0 = 0; omega

/-- The array the source-id window stages is the host's transpose of the source ids. -/
theorem ids_transposed (c : Dev nD) :
    (V m c main_v0 : Vec F S4x1x8192 .i32)
      = transpose S4x1x8192 [0, 2, 1] (m ((c : Thread nD τ).loc main_arg1)) transposes_S4x8192x1_S4x1x8192_0_2_1 := by
  dsimp only [V, hostOps0]; after_results

/-- The tile of source ids at `k` is the batch's source id of row 1024·(t % 8) + k. -/
theorem srcBlk_apply (c : Dev nD) (t : Fin cfg0.N) (b : Fin 4) (hb : b.val = t.val / 8) (k : Fin 1024)
    (hk : 1024 * (t.val % 8) + k.val < 8192) :
    srcBlk m c t (ix3 0 0 k) = srcArr m c (ix3 b ⟨1024 * (t.val % 8) + k.val, hk⟩ 0) := by
  obtain ⟨-, ⟨e0, e1, e2⟩, -, -⟩ := index_facts t
  show V m c main_v0 (((cfg0.win 1).blk t).view.emb (ix3 0 0 k)) = _
  rw [ids_transposed]
  refine (transpose_apply _ _ _ _ (ix3 b ⟨1024 * (t.val % 8) + k.val, hk⟩ 0) (fun a => ?_)).trans rfl
  have hkl := k.isLt
  match a with
  | ⟨0, _⟩ => show b.val = win0_1.index t (0 : Fin 3) * 1 + 1 * 0; omega
  | ⟨1, _⟩ => show 0 = win0_1.index t (1 : Fin 3) * 1 + 1 * 0; omega
  | ⟨2, _⟩ => show 1024 * (t.val % 8) + k.val = win0_1.index t (2 : Fin 3) * 1024 + 1 * k.val; omega

/-- The block of source rows at (k, d) is feature `d` of the batch's source row 1024·(t % 8) + k. -/
theorem rowBlk_apply (c : Dev nD) (t : Fin cfg0.N) (b : Fin 4) (hb : b.val = t.val / 8) (k : Fin 1024) (d : Fin 128)
    (hk : 1024 * (t.val % 8) + k.val < 8192) :
    rowBlk m c t (ix3 0 k d) = rowArr m c (ix3 b ⟨1024 * (t.val % 8) + k.val, hk⟩ d) := by
  obtain ⟨-, -, ⟨e0, e1, e2⟩, -⟩ := index_facts t
  show V m c main_arg2 (((cfg0.win 2).blk t).view.emb (ix3 0 k d)) = _
  rw [V_main_arg2]
  refine congrArg (m ((c : Thread nD τ).loc main_arg2)) (funext fun a => Fin.ext ?_)
  have hkl := k.isLt
  match a with
  | ⟨0, _⟩ => show win0_2.index t (0 : Fin 3) * 1 + 1 * 0 = b.val; omega
  | ⟨1, _⟩ => show win0_2.index t (1 : Fin 3) * 1024 + 1 * k.val = 1024 * (t.val % 8) + k.val; omega
  | ⟨2, _⟩ => show win0_2.index t (2 : Fin 3) * 128 + 1 * d.val = d.val; omega

end Cert.KernelIdeal.BlockValue

end
-- ==== Proof.PointValue.lean ====
/-
  What the two accumulators and the output block hold after a grid point, in terms of the point's input blocks and
  of what the point before left.

  The frame states the contents after each point by recursion on the point, case by case. Put together with what
  each case leaves: after the first tile of a batch (points ≡ 0 mod 8) each accumulator is its update applied to
  zero; after every other tile it is its update applied to what the point before left; and after the last tile of a
  batch (points ≡ 7 mod 8) the output block is the quotient of the two accumulators as that same point leaves them.
  For any float instance.
-/
import proofs.«107493_j2482491097343_1_alg».proof.Proof.CaseValue
import proofs.«107493_j2482491097343_1_alg».proof.Proof.BlockValue

noncomputable section

namespace Cert.KernelIdeal.PointValue

open Cert.KernelIdeal Cert.KernelIdeal.Gen Idealize.ShloMosaic Idealize.ShloMosaic.TcCoe Idealize.SL.Sem
open Cert.KernelIdeal.CaseValue Cert.KernelIdeal.BlockValue

variable {F : FTy → Type} [FloatOps F]
variable (m : (ℓ : Loc nD τ sig) → Buf (Elt F) ℓ)

/-- After the first tile of a batch the numerator is its update applied to zero. -/
theorem numer_reset_point (c : Dev nD) (t : Fin cfg0.N) (h0 : t.val % 8 = 0) :
    (outsAt0 m c t.val t.isLt).2.1 = k0_pay6 (tgtBlk m c t) (srcBlk m c t) (rowBlk m c t) k0_pay2 := by
  have h1 : ¬t.val % 8 = 7 := by omega
  rw [outsAt0_A m c t h0 h1]
  dsimp only
  exact numer_first (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- After the first tile of a batch the count is its update applied to zero. -/
theorem count_reset_point (c : Dev nD) (t : Fin cfg0.N) (h0 : t.val % 8 = 0) :
    (outsAt0 m c t.val t.isLt).2.2 = k0_pay5 (tgtBlk m c t) (srcBlk m c t) k0_pay3 := by
  have h1 : ¬t.val % 8 = 7 := by omega
  rw [outsAt0_A m c t h0 h1]
  dsimp only
  exact count_first (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- After any other tile the numerator is its update applied to what the point before left. -/
theorem numer_step_point (c : Dev nD) (t : Fin cfg0.N) (h0 : ¬t.val % 8 = 0) :
    (outsAt0 m c t.val t.isLt).2.1
      = k0_pay6 (tgtBlk m c t) (srcBlk m c t) (rowBlk m c t) (outsAt0 m c (t.val - 1) (Nat.lt_of_le_of_lt (Nat.sub_le _ _) t.isLt)).2.1 := by
  by_cases h1 : t.val % 8 = 7
  · rw [outsAt0_C m c t h0 h1]
    dsimp only
    exact numer_last (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact numer_middle (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- After any other tile the count is its update applied to what the point before left. -/
theorem count_step_point (c : Dev nD) (t : Fin cfg0.N) (h0 : ¬t.val % 8 = 0) :
    (outsAt0 m c t.val t.isLt).2.2
      = k0_pay5 (tgtBlk m c t) (srcBlk m c t) (outsAt0 m c (t.val - 1) (Nat.lt_of_le_of_lt (Nat.sub_le _ _) t.isLt)).2.2 := by
  by_cases h1 : t.val % 8 = 7
  · rw [outsAt0_C m c t h0 h1]
    dsimp only
    exact count_last (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact count_middle (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- After the last tile of a batch the output block is the quotient of the two accumulators as this point leaves them. -/
theorem block_last_point (c : Dev nD) (t : Fin cfg0.N) (h1 : t.val % 8 = 7) :
    (outsAt0 m c t.val t.isLt).1 = k0_pay1 (outsAt0 m c t.val t.isLt).2.1 (outsAt0 m c t.val t.isLt).2.2 := by
  have h0 : ¬t.val % 8 = 0 := by omega
  rw [numer_step_point m c t h0, count_step_point m c t h0, outsAt0_C m c t h0 h1]
  dsimp only
  exact block_last (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.PointValue

end
-- ==== Proof.MaskedMean.lean ====
/-
  Masked mean pooling by segment id, as ONE function of the three argument arrays, and the two facts about it that
  both programs are read against.

  For batch `b`, target row `n` and feature `d` the result is

      ( ∑ m, w b n m · x b m d ) / ( ∑ m, w b n m + ε ),

  the sums over all 8192 source rows `m`; the weight `w b n m` is one where the target row's segment id and the
  source row's are the same 32-bit word and zero elsewhere; `ε` is the f32 word 0x2EDBE6FF, the same word in both
  programs, never evaluated. Over the extended reals addition is commutative and associative with no side condition,
  so a sum over the 8192 rows is the sum over eight consecutive tiles of 1024 rows of the tiles' sums
  (`weighted_eq_tiles`, `weightSum_eq_tiles`): that regrouping is the whole law between a program that sums tile by
  tile and one that sums at once, and it asks nothing of the inputs.
-/
import Idealize.ShloMosaic.PureOps.Ideal
import Idealize.ShloMosaic.PureOps.Ideal.Laws
import Idealize.ShloMosaic.Lib.ValueIdx

noncomputable section

open scoped BigOperators

namespace Cert.MaskedMean

open Idealize.ShloMosaic Idealize.ShloMosaic.ValueIdx

/-- The arrays' shapes: target ids, source ids, source rows, pooled rows. -/
abbrev TgtIds : Shape := ⟨3, ![4, 2048, 1]⟩
abbrev SrcIds : Shape := ⟨3, ![4, 8192, 1]⟩
abbrev SrcRows : Shape := ⟨3, ![4, 8192, 128]⟩
abbrev Pooled : Shape := ⟨3, ![4, 2048, 128]⟩

/-- The weight of a source row for a target row: one where the two segment ids are the same word, zero elsewhere. -/
def hit (a b : BitVec 32) : EReal := if a = b then 1 else 0

/-! ## The weight as the two programs spell it -/

/-- The word comparison for equality is the bit `1` exactly where the words are equal. -/
theorem cmpi_eq_word (a b : BitVec 32) : IntOp.cmpi .eq a b = if a = b then 1#1 else 0#1 := by
  unfold IntOp.cmpi
  by_cases h : a = b
  · subst h; simp
  · have hb : (a == b) = false := beq_eq_false_iff_ne.mpr h
    simp [hb, h]

/-- The comparison bit widened to 32 bits and read as a SIGNED integer is the weight. -/
theorem hit_of_widened_signed (a b : BitVec 32) :
    ((((IntOp.cmpi .eq a b).setWidth 32).toInt : ℝ) : EReal) = hit a b := by
  rw [cmpi_eq_word]; unfold hit
  by_cases h : a = b
  · rw [if_pos h, if_pos h, show ((1#1 : BitVec 1).setWidth 32).toInt = 1 from by decide]; simp
  · rw [if_neg h, if_neg h, show ((0#1 : BitVec 1).setWidth 32).toInt = 0 from by decide]; simp

/-- The comparison bit read as an UNSIGNED integer is the weight. -/
theorem hit_of_unsigned (a b : BitVec 32) :
    (((IntOp.cmpi .eq a b).toNat : ℝ) : EReal) = hit a b := by
  rw [cmpi_eq_word]; unfold hit
  by_cases h : a = b
  · rw [if_pos h, if_pos h, show (1#1 : BitVec 1).toNat = 1 from by decide]; simp
  · rw [if_neg h, if_neg h, show (0#1 : BitVec 1).toNat = 0 from by decide]; simp

/-! ## The function -/

variable (t : IVec TgtIds 32) (s : IVec SrcIds 32) (x : FVec Ideal SrcRows .f32)

/-- The denominator's sum: how many source rows of batch `b` share target row `n`'s segment id. -/
def weightSum (b : Fin 4) (n : Fin 2048) : EReal :=
  ∑ m : Fin 8192, hit (t (ix3 b n 0)) (s (ix3 b m 0))

/-- The numerator: the sum of feature `d` over those source rows. -/
def weighted (b : Fin 4) (n : Fin 2048) (d : Fin 128) : EReal :=
  ∑ m : Fin 8192, hit (t (ix3 b n 0)) (s (ix3 b m 0)) * x (ix3 b m d)

/-- THE RESULT: the masked mean, index by index. -/
def pooled : FVec Ideal Pooled .f32 := fun i =>
  Ideal.div (weighted t s x (i 0) (i 1) (i 2)) (weightSum t s (i 0) (i 1) + Ideal.ofBits .f32 0x2EDBE6FF#32)

/-! ## Tile by tile -/

/-- The denominator's term at source row NUMBER `mm` (zero past the last row, so that it is a function of every natural). -/
def denTerm (b : Fin 4) (n : Fin 2048) (mm : ℕ) : EReal :=
  if h : mm < 8192 then hit (t (ix3 b n 0)) (s (ix3 b ⟨mm, h⟩ 0)) else 0

/-- The numerator's term at source row number `mm`. -/
def numTerm (b : Fin 4) (n : Fin 2048) (d : Fin 128) (mm : ℕ) : EReal :=
  if h : mm < 8192 then hit (t (ix3 b n 0)) (s (ix3 b ⟨mm, h⟩ 0)) * x (ix3 b ⟨mm, h⟩ d) else 0

/-- A sum over `K · J` consecutive naturals is the sum over `J` consecutive runs of `K` of the runs' sums. -/
theorem sum_range_runs {M : Type*} [AddCommMonoid M] (g : ℕ → M) (K : ℕ) :
    ∀ J : ℕ, ∑ i ∈ Finset.range (K * J), g i = ∑ j ∈ Finset.range J, ∑ k ∈ Finset.range K, g (K * j + k)
  | 0 => by simp
  | J + 1 => by rw [Nat.mul_succ, Finset.sum_range_add, sum_range_runs g K J, Finset.sum_range_succ]

/-- A sum over the 8192 rows of a function of the row number is the sum over the eight tiles of 1024 rows. -/
theorem sum_rows_eq_tiles {M : Type*} [AddCommMonoid M] (g : ℕ → M) :
    ∑ m : Fin 8192, g m.val = ∑ j ∈ Finset.range 8, ∑ k : Fin 1024, g (1024 * j + k.val) := by
  rw [Fin.sum_univ_eq_sum_range g 8192, show (8192 : ℕ) = 1024 * 8 from rfl, sum_range_runs g 1024 8]
  exact Finset.sum_congr rfl fun j _ => (Fin.sum_univ_eq_sum_range (fun k => g (1024 * j + k)) 1024).symm

theorem weightSum_eq_tiles (b : Fin 4) (n : Fin 2048) :
    weightSum t s b n = ∑ j ∈ Finset.range 8, ∑ k : Fin 1024, denTerm t s b n (1024 * j + k.val) := by
  rw [← sum_rows_eq_tiles]
  exact Finset.sum_congr rfl fun m _ => by unfold denTerm; rw [dif_pos m.isLt]

theorem weighted_eq_tiles (b : Fin 4) (n : Fin 2048) (d : Fin 128) :
    weighted t s x b n d = ∑ j ∈ Finset.range 8, ∑ k : Fin 1024, numTerm t s x b n d (1024 * j + k.val) := by
  rw [← sum_rows_eq_tiles]
  exact Finset.sum_congr rfl fun m _ => by unfold numTerm; rw [dif_pos m.isLt]

end Cert.MaskedMean

end
-- ==== Proof.TileValue.lean ====
/-
  One grid point's arithmetic, read at an index over the extended reals.

  At a grid point the body holds a block of 2048 target ids, a tile of 1024 source ids and the tile's 1024 source
  rows. It forms the 2048 × 1024 table of weights (the comparison bit of a target id with a source id, widened and
  converted: zero or one), adds each row's sum of weights to the running count, and adds the product of the weight
  table with the tile's rows to the running numerator; the narrowing of both factors to bf16 before the product is a
  change of float format, the identity on the extended reals. At the last tile the numerator is divided, entry by
  entry, by the count plus ε. Each lemma below is one of these read at ONE entry.
-/
import proofs.«107493_j2482491097343_1_alg».proof.Proof.Gen.KernelIdeal.Skeleton
import proofs.«107493_j2482491097343_1_alg».proof.Proof.MaskedMean
import Idealize.ShloMosaic.Lib.Pipeline.Value
import Idealize.ShloMosaic.Lib.ValueIdx
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.MaskedMean

variable (x0 : Vec Ideal S1x2048x1 .i32) (x1 : Vec Ideal S1x1x1024 .i32) (x2 : Vec Ideal S1x1024x128 .f32)

/-- The block of target ids viewed as a column and broadcast along the tile reads target row `r`'s id. -/
theorem target_bcast (r : Fin 2048) (k : Fin 1024) :
    broadcastTo S2048x1024 (shapeCast S2048x1 x0 shapeCasts_S1x2048x1_S2048x1) broadcasts_S2048x1_S2048x1024 (ix2 r k)
      = x0 (ix3 0 r 0) := by
  refine (broadcastTo_apply _ _ (ix2 r k) (ix2 r 0) (fun a => ?_)).trans ?_
  · match a with
    | ⟨0, _⟩ => show r.val = if (2048 : Nat) = 1 then 0 else r.val; rw [if_neg (by decide)]
    | ⟨1, _⟩ => show 0 = if (1 : Nat) = 1 then 0 else k.val; rw [if_pos rfl]
  · exact shapeCast_apply x0 _ (ix2 r 0) (ix3 0 r 0) (by
      rw [Shape.rowMajor_val_three, Shape.rowMajor_val_two]
      show (0 * 2048 + r.val) * 1 + 0 = r.val * 1 + 0; omega)

/-- The tile of source ids viewed as a row and broadcast along the targets reads the tile's `k`-th id. -/
theorem source_bcast (r : Fin 2048) (k : Fin 1024) :
    broadcastTo S2048x1024 (shapeCast S1x1024 x1 shapeCasts_S1x1x1024_S1x1024) broadcasts_S1x1024_S2048x1024 (ix2 r k)
      = x1 (ix3 0 0 k) := by
  refine (broadcastTo_apply _ _ (ix2 r k) (ix2 0 k) (fun a => ?_)).trans ?_
  · match a with
    | ⟨0, _⟩ => show 0 = if (1 : Nat) = 1 then 0 else r.val; rw [if_pos rfl]
    | ⟨1, _⟩ => show k.val = if (1024 : Nat) = 1 then 0 else k.val; rw [if_neg (by decide)]
  · exact shapeCast_apply x1 _ (ix2 0 k) (ix3 0 0 k) (by
      rw [Shape.rowMajor_val_three, Shape.rowMajor_val_two]
      show (0 * 1 + 0) * 1024 + k.val = 0 * 1024 + k.val; omega)

/-- THE WEIGHT TABLE at (r, k): the weight of the tile's `k`-th source row for target row `r`. -/
theorem weight_tile (r : Fin 2048) (k : Fin 1024) :
    k0_pay4 (F := Ideal) x0 x1 (ix2 r k) = hit (x0 (ix3 0 r 0)) (x1 (ix3 0 0 k)) := by
  unfold k0_pay4
  show ((((IntOp.cmpi .eq
      (broadcastTo S2048x1024 (shapeCast S2048x1 x0 shapeCasts_S1x2048x1_S2048x1) broadcasts_S2048x1_S2048x1024 (ix2 r k))
      (broadcastTo S2048x1024 (shapeCast S1x1024 x1 shapeCasts_S1x1x1024_S1x1024) broadcasts_S1x1024_S2048x1024 (ix2 r k))).setWidth 32).toInt : ℝ) : EReal) = _
  rw [target_bcast, source_bcast]
  exact hit_of_widened_signed _ _

/-- THE COUNT after this tile, at target row `r`: the count before plus the row's sum of weights. -/
theorem count_tile (w : Vec Ideal S2048x1 .f32) (r : Fin 2048) :
    k0_pay5 (F := Ideal) x0 x1 w (ix2 r 0)
      = w (ix2 r 0) + ∑ k : Fin 1024, hit (x0 (ix3 0 r 0)) (x1 (ix3 0 0 k)) := by
  unfold k0_pay5
  refine (congrFun (shapeCast_self _ _) (ix2 r 0)).trans ?_
  refine congrArg (w (ix2 r 0) + ·) ?_
  refine (shapeCast_apply _ _ (ix2 r 0) (ix1 r) (by
    rw [Shape.rowMajor_val_one, Shape.rowMajor_val_two]
    show r.val = r.val * 1 + 0; omega)).trans ?_
  refine (Ideal.multiReduction_add_single (k0_pay4 (F := Ideal) x0 x1) _ reduces_S2048x1024_S2048 _ _ (ix1 r)).trans ?_
  refine Finset.sum_congr rfl fun k _ => ?_
  have e : reduces_S2048x1024_S2048.lift (ix1 r) k = ix2 r k :=
    funext fun a => Fin.ext (by match a with | ⟨0, _⟩ => rfl | ⟨1, _⟩ => rfl)
  rw [e]
  exact weight_tile x0 x1 r k

/-! ### The product's operand indices -/

theorem lhs_axis0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
theorem lhs_axis1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_axis0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_axis1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl

/-- The tile's rows with the leading unit axis dropped read row `k`, feature `d`. -/
theorem rows_cast (k : Fin 1024) (d : Fin 128) :
    shapeCast S1024x128 x2 shapeCasts_S1x1024x128_S1024x128 (ix2 k d) = x2 (ix3 0 k d) :=
  shapeCast_apply x2 _ (ix2 k d) (ix3 0 k d) (by
    rw [Shape.rowMajor_val_three, Shape.rowMajor_val_two]
    show (0 * 1024 + k.val) * 128 + d.val = k.val * 128 + d.val; omega)

/-- THE NUMERATOR after this tile, at (r, d): the numerator before plus the sum over the tile's rows of weight times
    feature. -/
theorem numer_tile (acc : Vec Ideal S2048x128 .f32) (r : Fin 2048) (d : Fin 128) :
    k0_pay6 (F := Ideal) x0 x1 x2 acc (ix2 r d)
      = acc (ix2 r d) + ∑ k : Fin 1024, hit (x0 (ix3 0 r 0)) (x1 (ix3 0 0 k)) * x2 (ix3 0 k d) := by
  unfold k0_pay6
  refine (congrFun (shapeCast_self _ _) (ix2 r d)).trans ?_
  refine congrArg (acc (ix2 r d) + ·) ?_
  refine (Ideal.matmul_constant_zero_apply _ none _ _ (ix2 r d)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r d)
      ((contrEquiv1 dot_S2048x1024_S1024x128_S2048x128_1_0_0_1_n_n 1024 rfl rfl).symm k) = ix2 r k :=
    funext fun a => Fin.ext (by
      match a with
      | ⟨0, _⟩ => exact lhs_axis0 _ _
      | ⟨1, _⟩ => exact (lhs_axis1 _ _).trans hk)
  have er : dot_S2048x1024_S1024x128_S2048x128_1_0_0_1_n_n.rhsIdx (ix2 r d)
      ((contrEquiv1 dot_S2048x1024_S1024x128_S2048x128_1_0_0_1_n_n 1024 rfl rfl).symm k) = ix2 k d :=
    funext fun a => Fin.ext (by
      match a with
      | ⟨0, _⟩ => exact (rhs_axis0 _ _).trans hk
      | ⟨1, _⟩ => exact rhs_axis1 _ _)
  rw [el, er]
  show k0_pay4 (F := Ideal) x0 x1 (ix2 r k) * shapeCast S1024x128 x2 shapeCasts_S1x1024x128_S1024x128 (ix2 k d) = _
  rw [weight_tile, rows_cast]

/-- THE QUOTIENT the last tile stores, at (r, d): the numerator over the count plus ε. -/
theorem quotient_apply (a : Vec Ideal S2048x128 .f32) (w : Vec Ideal S2048x1 .f32) (r : Fin 2048) (d : Fin 128) :
    k0_pay1 (F := Ideal) a w (ix3 0 r d)
      = Ideal.div (a (ix2 r d)) (w (ix2 r 0) + Ideal.ofBits .f32 0x2EDBE6FF#32) := by
  unfold k0_pay1
  refine (shapeCast_apply _ _ (ix3 0 r d) (ix2 r d) (by
    rw [Shape.rowMajor_val_three, Shape.rowMajor_val_two]
    show r.val * 128 + d.val = (0 * 2048 + r.val) * 128 + d.val; omega)).trans ?_
  refine congrArg (Ideal.div (a (ix2 r d)) ·) ?_
  refine (broadcastTo_apply _ _ (ix2 r d) (ix2 r 0) (fun b => ?_)).trans rfl
  match b with
  | ⟨0, _⟩ => show r.val = if (2048 : Nat) = 1 then 0 else r.val; rw [if_neg (by decide)]
  | ⟨1, _⟩ => show 0 = if (1 : Nat) = 1 then 0 else d.val; rw [if_pos rfl]

/-- The zero blocks the first tile resets the two accumulators to. -/
theorem numer_reset (r : Fin 2048) (d : Fin 128) : k0_pay2 (F := Ideal) (ix2 r d) = 0 := by
  unfold k0_pay2
  refine (congrFun (shapeCast_self _ _) (ix2 r d)).trans ?_
  exact Ideal.ofBits_zero_f32
theorem count_reset (r : Fin 2048) : k0_pay3 (F := Ideal) (ix2 r 0) = 0 := by
  unfold k0_pay3
  refine (congrFun (shapeCast_self _ _) (ix2 r 0)).trans ?_
  exact Ideal.ofBits_zero_f32

end Cert.KernelIdeal.TileValue

end
-- ==== Proof.RunningSum.lean ====
/-
  The two accumulators after each grid point, as partial sums of the specification's terms.

  Point `n` of the grid works on batch `n / 8`, tile `n % 8`. By induction on the point: after point `n` the numerator
  at (r, d) is the sum, over the tiles 0 … n % 8 of that batch, of each tile's sum of weight times feature, and the
  count at r is the same sum of the weights alone. At a batch's first tile the update is applied to the zero block, so
  the partial sum is the first tile's; at every later tile the update adds the tile's sum to what the point before
  left, and a point that is not a batch's first has the point before it in the same batch. Only `0 + a = a` and the
  splitting of a sum over a range at its last term are used: no finiteness.
-/
import proofs.«107493_j2482491097343_1_alg».proof.Proof.PointValue
import proofs.«107493_j2482491097343_1_alg».proof.Proof.TileValue

noncomputable section

open scoped BigOperators

namespace Cert.KernelIdeal.RunningSum

open Cert.KernelIdeal Cert.KernelIdeal.Gen Idealize.ShloMosaic Idealize.ShloMosaic.TcCoe Idealize.SL.Sem
open Idealize.ShloMosaic.ValueIdx Cert.MaskedMean
open Cert.KernelIdeal.BlockValue Cert.KernelIdeal.PointValue Cert.KernelIdeal.TileValue

variable (m : (ℓ : Loc nD τ sig) → Buf (Elt Ideal) ℓ)

/-- One point's update of the numerator, in the specification's terms: it adds the tile's sum of weight times feature. -/
theorem numer_update (c : Dev nD) (t : Fin cfg0.N) (b : Fin 4) (hb : b.val = t.val / 8) (acc : Vec Ideal S2048x128 .f32)
    (r : Fin 2048) (d : Fin 128) :
    k0_pay6 (F := Ideal) (tgtBlk m c t) (srcBlk m c t) (rowBlk m c t) acc (ix2 r d)
      = acc (ix2 r d) + ∑ k : Fin 1024, numTerm (tgtArr m c) (srcArr m c) (rowArr m c) b r d (1024 * (t.val % 8) + k.val) := by
  rw [numer_tile]
  refine congrArg (acc (ix2 r d) + ·) (Finset.sum_congr rfl fun k _ => ?_)
  have hk : 1024 * (t.val % 8) + k.val < 8192 := by have := k.isLt; omega
  rw [tgtBlk_apply m c t b hb, srcBlk_apply m c t b hb k hk, rowBlk_apply m c t b hb k d hk]
  unfold numTerm
  rw [dif_pos hk]

/-- One point's update of the count: it adds the tile's sum of weights. -/
theorem count_update (c : Dev nD) (t : Fin cfg0.N) (b : Fin 4) (hb : b.val = t.val / 8) (w : Vec Ideal S2048x1 .f32)
    (r : Fin 2048) :
    k0_pay5 (F := Ideal) (tgtBlk m c t) (srcBlk m c t) w (ix2 r 0)
      = w (ix2 r 0) + ∑ k : Fin 1024, denTerm (tgtArr m c) (srcArr m c) b r (1024 * (t.val % 8) + k.val) := by
  rw [count_tile]
  refine congrArg (w (ix2 r 0) + ·) (Finset.sum_congr rfl fun k _ => ?_)
  have hk : 1024 * (t.val % 8) + k.val < 8192 := by have := k.isLt; omega
  rw [tgtBlk_apply m c t b hb, srcBlk_apply m c t b hb k hk]
  unfold denTerm
  rw [dif_pos hk]

/-- THE NUMERATOR after point `n`: the partial sum over the batch's tiles 0 … n % 8. -/
theorem numer_after (c : Dev nD) : ∀ (n : ℕ) (h : n < cfg0.N) (b : Fin 4), b.val = n / 8 → ∀ (r : Fin 2048) (d : Fin 128),
    (outsAt0 m c n h).2.1 (ix2 r d)
      = ∑ s ∈ Finset.range (n % 8 + 1), ∑ k : Fin 1024, numTerm (tgtArr m c) (srcArr m c) (rowArr m c) b r d (1024 * s + k.val)
  | 0, h, b, hb, r, d => by
    rw [show (outsAt0 m c 0 h).2.1 = _ from numer_reset_point m c ⟨0, h⟩ rfl]
    refine (numer_update m c ⟨0, h⟩ b hb _ r d).trans ?_
    rw [numer_reset, zero_add]
    show _ = ∑ s ∈ Finset.range 1, _
    rw [Finset.sum_range_one]
    rfl
  | n + 1, h, b, hb, r, d => by
    have hN : n + 1 < 32 := lt_of_lt_of_eq h (show cfg0.N = 32 from N_0)
    by_cases h0 : (n + 1) % 8 = 0
    · rw [show (outsAt0 m c (n + 1) h).2.1 = _ from numer_reset_point m c ⟨n + 1, h⟩ h0]
      refine (numer_update m c ⟨n + 1, h⟩ b hb _ r d).trans ?_
      rw [numer_reset, zero_add]
      show ∑ k : Fin 1024, numTerm (tgtArr m c) (srcArr m c) (rowArr m c) b r d (1024 * ((n + 1) % 8) + k.val) = _
      rw [h0, Finset.sum_range_one]
    · have ih := numer_after c n (Nat.lt_of_succ_lt h) b (by omega) r d
      have hr : (n + 1) % 8 = n % 8 + 1 := by omega
      rw [show (outsAt0 m c (n + 1) h).2.1 = _ from numer_step_point m c ⟨n + 1, h⟩ h0]
      refine (numer_update m c ⟨n + 1, h⟩ b hb _ r d).trans ?_
      show (outsAt0 m c n _).2.1 (ix2 r d) + ∑ k : Fin 1024, numTerm (tgtArr m c) (srcArr m c) (rowArr m c) b r d (1024 * ((n + 1) % 8) + k.val) = _
      rw [ih, hr, Finset.sum_range_succ _ (n % 8 + 1)]

/-- THE COUNT after point `n`: the partial sum of the weights over the batch's tiles 0 … n % 8. -/
theorem count_after (c : Dev nD) : ∀ (n : ℕ) (h : n < cfg0.N) (b : Fin 4), b.val = n / 8 → ∀ (r : Fin 2048),
    (outsAt0 m c n h).2.2 (ix2 r 0)
      = ∑ s ∈ Finset.range (n % 8 + 1), ∑ k : Fin 1024, denTerm (tgtArr m c) (srcArr m c) b r (1024 * s + k.val)
  | 0, h, b, hb, r => by
    rw [show (outsAt0 m c 0 h).2.2 = _ from count_reset_point m c ⟨0, h⟩ rfl]
    refine (count_update m c ⟨0, h⟩ b hb _ r).trans ?_
    rw [count_reset, zero_add]
    show _ = ∑ s ∈ Finset.range 1, _
    rw [Finset.sum_range_one]
    rfl
  | n + 1, h, b, hb, r => by
    have hN : n + 1 < 32 := lt_of_lt_of_eq h (show cfg0.N = 32 from N_0)
    by_cases h0 : (n + 1) % 8 = 0
    · rw [show (outsAt0 m c (n + 1) h).2.2 = _ from count_reset_point m c ⟨n + 1, h⟩ h0]
      refine (count_update m c ⟨n + 1, h⟩ b hb _ r).trans ?_
      rw [count_reset, zero_add]
      show ∑ k : Fin 1024, denTerm (tgtArr m c) (srcArr m c) b r (1024 * ((n + 1) % 8) + k.val) = _
      rw [h0, Finset.sum_range_one]
    · have ih := count_after c n (Nat.lt_of_succ_lt h) b (by omega) r
      have hr : (n + 1) % 8 = n % 8 + 1 := by omega
      rw [show (outsAt0 m c (n + 1) h).2.2 = _ from count_step_point m c ⟨n + 1, h⟩ h0]
      refine (count_update m c ⟨n + 1, h⟩ b hb _ r).trans ?_
      show (outsAt0 m c n _).2.2 (ix2 r 0) + ∑ k : Fin 1024, denTerm (tgtArr m c) (srcArr m c) b r (1024 * ((n + 1) % 8) + k.val) = _
      rw [ih, hr, Finset.sum_range_succ _ (n % 8 + 1)]

/-- So after a batch's LAST tile the numerator is the specification's, … -/
theorem numer_final (c : Dev nD) (t : Fin cfg0.N) (h1 : t.val % 8 = 7) (b : Fin 4) (hb : b.val = t.val / 8)
    (r : Fin 2048) (d : Fin 128) :
    (outsAt0 m c t.val t.isLt).2.1 (ix2 r d) = weighted (tgtArr m c) (srcArr m c) (rowArr m c) b r d := by
  rw [numer_after m c t.val t.isLt b hb r d, h1, weighted_eq_tiles]

/-- … and the count is the specification's. -/
theorem count_final (c : Dev nD) (t : Fin cfg0.N) (h1 : t.val % 8 = 7) (b : Fin 4) (hb : b.val = t.val / 8)
    (r : Fin 2048) :
    (outsAt0 m c t.val t.isLt).2.2 (ix2 r 0) = weightSum (tgtArr m c) (srcArr m c) b r := by
  rw [count_after m c t.val t.isLt b hb r, h1, weightSum_eq_tiles]

end Cert.KernelIdeal.RunningSum

end
-- ==== Proof.PooledArray.lean ====
/-
  The kernel's result array is the masked mean.

  The output block of batch `b` is written back once, after the batch's last tile (points ≡ 7 mod 8); what is written
  is the quotient of the two accumulators as that point leaves them, and by then they are the specification's whole
  sums over the batch's 8192 source rows. The four write-backs land on the four batches' blocks, which tile the
  4 × 2048 × 128 result array: so the array ends holding the specification's value at every index.
-/
import proofs.«107493_j2482491097343_1_alg».proof.Proof.RunningSum
import proofs.«107493_j2482491097343_1_alg».proof.Proof.Gen.KernelIdeal.Value

noncomputable section

open scoped BigOperators

namespace Cert.KernelIdeal.PooledArray

open Cert.KernelIdeal Cert.KernelIdeal.Gen Idealize.ShloMosaic Idealize.ShloMosaic.TcCoe Idealize.SL.Sem
open Idealize.ShloMosaic.Pipeline (Dat)
open Idealize.ShloMosaic.ValueIdx Cert.MaskedMean
open Cert.KernelIdeal.BlockValue Cert.KernelIdeal.PointValue Cert.KernelIdeal.TileValue Cert.KernelIdeal.RunningSum

variable (m : (ℓ : Loc nD τ sig) → Buf (Elt Ideal) ℓ) (ρ : Dev nD → PrngReg)

/-- The specification at core `c`'s argument arrays. -/
abbrev spec (c : Dev nD) : Vec Ideal S4x2048x128 .f32 := pooled (tgtArr m c) (srcArr m c) (rowArr m c)

/-- WHAT A WRITE-BACK WRITES is the specification read through the point's block. -/
theorem flushed_eq (c : Dev nD) (t : Fin cfg0.N) (hf : (cfg0.win 3).flush t = true) :
    (dats m 0 c).flushed 3 t = ((cfg0.win 3).blk t).view.read (Elt Ideal) (spec m c) := by
  have h1 : t.val % 8 = 7 := (flush0_3 t).mp hf
  have hN : t.val < 32 := lt_of_lt_of_eq t.isLt (show cfg0.N = 32 from N_0)
  obtain ⟨-, -, -, e0, e1, e2⟩ := index_facts t
  have key : ∀ y : S1x2048x128.Idx,
      k0_pay1 (F := Ideal) (outsAt0 m c t.val t.isLt).2.1 (outsAt0 m c t.val t.isLt).2.2 y
        = spec m c (((cfg0.win 3).blk t).view.emb y) := by
    intro y
    obtain ⟨z, r, d, rfl⟩ : ∃ (z : Fin 1) (r : Fin 2048) (d : Fin 128), y = ix3 z r d := ⟨y 0, y 1, y 2, eq_ix3 y⟩
    obtain rfl : z = 0 := Subsingleton.elim _ _
    have hb : (⟨t.val / 8, by omega⟩ : Fin 4).val = t.val / 8 := rfl
    rw [quotient_apply, numer_final m c t h1 ⟨t.val / 8, by omega⟩ hb, count_final m c t h1 ⟨t.val / 8, by omega⟩ hb]
    have hemb : ((cfg0.win 3).blk t).view.emb (ix3 0 r d) = ix3 (⟨t.val / 8, by omega⟩ : Fin 4) r d :=
      funext fun a => Fin.ext (by
        match a with
        | ⟨0, _⟩ => show win0_3.index t (0 : Fin 3) * 1 + 1 * 0 = t.val / 8; omega
        | ⟨1, _⟩ => show win0_3.index t (1 : Fin 3) * 2048 + 1 * r.val = r.val; omega
        | ⟨2, _⟩ => show win0_3.index t (2 : Fin 3) * 128 + 1 * d.val = d.val; omega)
    rw [hemb]
    rfl
  rw [Value.flushed3, block_last_point m c t h1]
  funext y
  exact key y

/-- An index of the result array is in point `t`'s block iff each coordinate is in the block's range on its axis. -/
theorem mem_block (t : Fin cfg0.N) (i : S4x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v1).slice (win0_3.rect t)).set ↔ _
  rw [View.set_slice_whole, Rect.mem_set_unit]
  exact Iff.rfl

/-- Every index (b, r, d) is in the block written back after batch `b`'s last tile, point 8·b + 7. -/
theorem covered (i : S4x2048x128.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 128 := (i 2).isLt
  have hlt : 8 * (i 0).val + 7 < cfg0.N := by rw [show cfg0.N = 32 from N_0]; omega
  refine ⟨⟨8 * (i 0).val + 7, hlt⟩, (flush0_3 _).mpr (by show (8 * (i 0).val + 7) % 8 = 7; omega), ?_⟩
  obtain ⟨-, -, -, e0, e1, e2⟩ := index_facts ⟨8 * (i 0).val + 7, hlt⟩
  have e0' : win0_3.index ⟨8 * (i 0).val + 7, hlt⟩ (0 : Fin 3) = (8 * (i 0).val + 7) / 8 := e0
  rw [mem_block]
  intro a
  match a with
  | ⟨0, _⟩ =>
    show win0_3.index ⟨8 * (i 0).val + 7, hlt⟩ (0 : Fin 3) * 1 ≤ (i 0).val
      ∧ (i 0).val < win0_3.index ⟨8 * (i 0).val + 7, hlt⟩ (0 : Fin 3) * 1 + 1
    omega
  | ⟨1, _⟩ =>
    show win0_3.index ⟨8 * (i 0).val + 7, hlt⟩ (1 : Fin 3) * 2048 ≤ (i 1).val
      ∧ (i 1).val < win0_3.index ⟨8 * (i 0).val + 7, hlt⟩ (1 : Fin 3) * 2048 + 2048
    omega
  | ⟨2, _⟩ =>
    show win0_3.index ⟨8 * (i 0).val + 7, hlt⟩ (2 : Fin 3) * 128 ≤ (i 2).val
      ∧ (i 2).val < win0_3.index ⟨8 * (i 0).val + 7, hlt⟩ (2 : Fin 3) * 128 + 128
    omega

/-- THE RESULT ARRAY after the run is the specification. -/
theorem final (c : Dev nD) : (dats m 0 c).arrAt 3 cfg0.N = spec m c :=
  (dats m 0 c).arrAt_eq_of_cover 3 (spec m c) (fun t hf => flushed_eq m c t hf) covered

/-- The kernel's run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.PooledArray

end
-- ==== Proof.ReferenceMean.lean ====
/-
  The reference program is the masked mean.

  Read one operation at a time, the reference compares the target ids, broadcast along the source axis, with the
  source ids, broadcast along the target axis; converts the comparison bit to a float (the weight, zero or one);
  sums the weights over the source axis from the initial value zero and adds ε; contracts the weights with the
  source rows over the source axis, batch by batch; and divides. At one index (b, n, d) that is

      ( ∑ m, w b n m · x b m d ) / ( (0 + ∑ m, w b n m) + ε ),

  which is the specification's value there once the initial zero is dropped: no regrouping is needed on this side.
-/
import proofs.«107493_j2482491097343_1_alg».proof.Proof.Gen.ReferenceIdeal.Read
import proofs.«107493_j2482491097343_1_alg».proof.Proof.MaskedMean

noncomputable section

open scoped BigOperators

namespace Cert.ReferenceIdeal.RefValue

open Cert.ReferenceIdeal Cert.ReferenceIdeal.Read Idealize.ShloMosaic Idealize.ShloMosaic.ValueIdx Cert.MaskedMean

/-! ## Where each operand is read -/

/-- The contraction reads the weights at (b, n, m) … -/
theorem weights_at (b : Fin 4) (n : Fin 2048) (d : Fin 128) (k : Fin 8192) :
    lidx_main_v12 (ix3 b n d) k = ix3 b n k :=
  funext fun a => Fin.ext (by match a with | ⟨0, _⟩ => rfl | ⟨1, _⟩ => rfl | ⟨2, _⟩ => rfl)

/-- … and the source rows at (b, m, d). -/
theorem rows_at (b : Fin 4) (n : Fin 2048) (d : Fin 128) (k : Fin 8192) :
    ridx_main_v12 (ix3 b n d) k = ix3 b k d :=
  funext fun a => Fin.ext (by match a with | ⟨0, _⟩ => rfl | ⟨1, _⟩ => rfl | ⟨2, _⟩ => rfl)

/-- The denominator, broadcast along the features, sums the weights at (b, n, m) too. -/
theorem count_at (b : Fin 4) (n : Fin 2048) (d : Fin 128) (k : Fin 8192) :
    idx_main_v8 (idx_main_v9 (idx_main_v13 (ix3 b n d))) k = ix3 b n k :=
  funext fun a => Fin.ext (by match a with | ⟨0, _⟩ => rfl | ⟨1, _⟩ => rfl | ⟨2, _⟩ => rfl)

/-- The weight at (b, n, m) compares the target id of row (b, n) … -/
theorem target_at (b : Fin 4) (n : Fin 2048) (k : Fin 8192) :
    idx_main_v0 (idx_main_v1 (idx_main_v4 (ix3 b n k))) = ix3 b n 0 :=
  funext fun a => Fin.ext (by
    have hn := n.isLt
    match a with
    | ⟨0, _⟩ => show (b.val * 2048 + n.val) / 2048 = b.val; omega
    | ⟨1, _⟩ => show (b.val * 2048 + n.val) / 1 % 2048 = n.val; omega
    | ⟨2, _⟩ => rfl)

/-- … with the source id of row (b, m). -/
theorem source_at (b : Fin 4) (n : Fin 2048) (k : Fin 8192) :
    idx_main_v2 (idx_main_v3 (idx_main_v5 (ix3 b n k))) = ix3 b k 0 :=
  funext fun a => Fin.ext (by
    have hk := k.isLt
    match a with
    | ⟨0, _⟩ => show (b.val * 8192 + k.val) / 8192 = b.val; omega
    | ⟨1, _⟩ => show (b.val * 8192 + k.val) / 1 % 8192 = k.val; omega
    | ⟨2, _⟩ => rfl)

variable (x0 : IVec TgtIds 32) (x1 : IVec SrcIds 32) (x2 : FVec Ideal SrcRows .f32)

/-- The converted comparison at (b, n, m) is the weight of source row m for target row n. -/
theorem weight_apply (b : Fin 4) (n : Fin 2048) (k : Fin 8192) :
    val_main_v7 (F := Ideal) x0 x1 (ix3 b n k) = hit (x0 (ix3 b n 0)) (x1 (ix3 b k 0)) := by
  rw [val_main_v7_apply, val_main_v6_apply, val_main_v4_apply, val_main_v1_apply, val_main_v0_apply,
    val_main_v5_apply, val_main_v3_apply, val_main_v2_apply, target_at, source_at]
  exact hit_of_unsigned _ _

/-- THE REFERENCE'S RESULT is the masked mean, index by index. -/
theorem result_eq : val_main_v14 (F := Ideal) x0 x1 x2 = pooled x0 x1 x2 := by
  funext i
  obtain ⟨b, n, d, rfl⟩ : ∃ (b : Fin 4) (n : Fin 2048) (d : Fin 128), i = ix3 b n d := ⟨i 0, i 1, i 2, eq_ix3 i⟩
  rw [val_main_v14_apply, val_main_v12_apply, val_main_v13_apply, val_main_v11_apply, val_main_v9_apply,
    val_main_v8_apply, val_main_v10_apply, val_main_cst_0_apply, val_main_cst_apply]
  simp only [weights_at, rows_at, count_at, weight_apply]
  show Ideal.div _ ((Ideal.ofBits .f32 0x00000000#32 + _) + Ideal.ofBits .f32 0x2EDBE6FF#32) = _
  rw [Ideal.ofBits_zero_f32, zero_add]
  rfl

end Cert.ReferenceIdeal.RefValue

end
-- ==== Proof.lean ====
/- The proof of `Cert.Claim`: a kernel that pools source rows onto target rows by segment id, tile by tile, against the
   reference that does it at once.

   For batch b, target row n and feature d both programs compute, over the extended reals,

       ( ∑ m, w b n m · x b m d ) / ( ∑ m, w b n m + ε ),      w b n m = 1 if the two segment ids are equal, else 0,

   the sums over the batch's 8192 source rows, ε the same f32 word on both sides (Proof/MaskedMean.lean). The
   reference forms the 2048 × 8192 weight table, sums it along the source axis and contracts it with the source rows
   (Proof/ReferenceMean.lean: read one operation at a time, it is the formula). The kernel walks the source axis in
   eight tiles of 1024 rows per batch: it keeps a numerator and a count between grid points, zeroed at a batch's first
   tile, each tile adding its own partial sums (the narrowing of the weights and the rows to bf16 before the product is a
   change of float format, the identity here), and divides after the last tile (Proof/CaseValue.lean, TileValue.lean,
   BlockValue.lean, PointValue.lean). By induction on the grid point the accumulators are the partial sums over the
   tiles seen so far (Proof/RunningSum.lean), and a sum over 8192 rows is the sum of its eight tiles' sums — addition of
   extended reals is commutative and associative outright, so nothing is asked of the inputs (the precondition is never
   opened). The four write-backs tile the result array (Proof/PooledArray.lean). The three frames are the generated
   ones; the idealization rewrote nothing, so `preserves` is `True`. -/
import proofs.«107493_j2482491097343_1_alg».proof.Defs
import proofs.«107493_j2482491097343_1_alg».proof.Proof.Gen.Kernel
import proofs.«107493_j2482491097343_1_alg».proof.Proof.Gen.Kernel.Skeleton
import proofs.«107493_j2482491097343_1_alg».proof.Proof.Gen.Kernel.Launch
import proofs.«107493_j2482491097343_1_alg».proof.Proof.Gen.Kernel.Points
import proofs.«107493_j2482491097343_1_alg».proof.Proof.Gen.Kernel.Frame
import proofs.«107493_j2482491097343_1_alg».proof.Proof.Gen.KernelIdeal
import proofs.«107493_j2482491097343_1_alg».proof.Proof.Gen.KernelIdeal.Skeleton
import proofs.«107493_j2482491097343_1_alg».proof.Proof.Gen.KernelIdeal.Launch
import proofs.«107493_j2482491097343_1_alg».proof.Proof.Gen.KernelIdeal.Points
import proofs.«107493_j2482491097343_1_alg».proof.Proof.Gen.KernelIdeal.Frame
import proofs.«107493_j2482491097343_1_alg».proof.Proof.Gen.ReferenceIdeal
import proofs.«107493_j2482491097343_1_alg».proof.Proof.Gen.Pre_finite_inputs
import proofs.«107493_j2482491097343_1_alg».proof.Proof.Gen.KernelIdeal.Value
import proofs.«107493_j2482491097343_1_alg».proof.Proof.Gen.ReferenceIdeal.Run
import proofs.«107493_j2482491097343_1_alg».proof.Proof.Gen.ReferenceIdeal.Read
import proofs.«107493_j2482491097343_1_alg».proof.Proof.PooledArray
import proofs.«107493_j2482491097343_1_alg».proof.Proof.ReferenceMean
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both idealized programs end with the result array at the masked
    mean of those arguments: the kernel by its tiles' partial sums, the reference operation by operation. -/
theorem algebraic : Cert.algebraic_KernelIdeal_ReferenceIdeal := by
  intro m ρ m' ρ' _ hagree
  refine ⟨fun c => Cert.KernelIdeal.PooledArray.spec m c, Cert.KernelIdeal.PooledArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
